-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64x64 .f32) (main_arg10 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S5000x64 : Shape := ⟨2, ![5000, 64]⟩

abbrev nBuf : Space → Nat
  | .hbm => 93
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S_, .f32⟩
  | .hbm, ⟨55, _⟩ => ⟨S800000x1, .f32⟩
  | .hbm, ⟨56, _⟩ => ⟨S_, .f32⟩
  | .hbm, ⟨57, _⟩ => ⟨S50000x1, .f32⟩
  | .hbm, ⟨58, _⟩ => ⟨S800000x1, .i32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S_, .f32⟩
  | .hbm, ⟨81, _⟩ => ⟨S800000x1, .f32⟩
  | .hbm, ⟨82, _⟩ => ⟨S_, .f32⟩
  | .hbm, ⟨83, _⟩ => ⟨S50000x1, .f32⟩
  | .hbm, ⟨84, _⟩ => ⟨S800000x1, .i32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S_, .f32⟩
  | .hbm, ⟨95, _⟩ => ⟨S800000x1, .f32⟩
  | .hbm, ⟨96, _⟩ => ⟨S_, .f32⟩
  | .hbm, ⟨97, _⟩ => ⟨S50000x1, .f32⟩
  | .hbm, ⟨98, _⟩ => ⟨S800000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostSide.lean ====
/-
  The host stretches between the tiled layers, read as functions.

  Before each tiled layer the program prepares the neighbour means from the current node features and the edge list
  (gather the source rows, add them up per destination node, count the incoming edges per node, clamp the counts at
  one, divide) and lays the bias out as one row. This module names those functions and reads each buffer a later step
  uses back through a stretch to its function of the buffers the stretch started from; a buffer the stretch does not
  write is read back unchanged, and a buffer a tiled layer does not stage is the same before and after the layer.
-/
import proofs.«117864_j53257594470606_1_alg».proof.Proof.Gen.KernelIdeal.Frame
import Idealize.ShloMosaic.Lib.StableHlo.Run

set_option maxRecDepth 16384

noncomputable section

namespace Cert.KernelIdeal.HostFn

open Idealize.ShloMosaic Idealize.ShloMosaic.TcCoe Idealize.SL.Sem Idealize.ShloMosaic.StableHlo
open Cert.KernelIdeal Cert.KernelIdeal.Gen

variable {F : FTy → Type} [FloatOps F]

/-- The edge list's first row: the source node of every edge. -/
def srcRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edge list's second row: the destination node of every edge. -/
def dstRow (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The neighbour mean: gather the source rows of `h` (a negative source index counted from the end), add them up
    per destination node, and divide by the number of incoming edges, at least one. -/
def mean (h : (⟨S50000x64, .f32⟩ : BufTy).Contents (Elt F)) (s d : (⟨S800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d)
      (Host.gather gather_S50000x64_S800000x1_S800000x64_1_0_n_n_0_1_164 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x64 ![0, 1] bcast_S50000x1_S50000x64_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 d)
          (broadcastInDim S800000x1 ![] bcast_S_S800000x1 (constant S_ .f32 0x3F800000#32)))
        (broadcastInDim S50000x1 ![] bcast_S_S50000x1 (constant S_ .f32 0x3F800000#32))))

variable (m : (ℓ : Loc nD τ sig) → Buf (Elt F) ℓ) (ρ : Dev nD → PrngReg)

/-! ## Stretch 0: from the launch to the first layer -/

set_option maxHeartbeats 4000000 in
/-- After the first stretch: the neighbour means of the input features, the first bias as a row, the two rows of the
    edge list, and every argument the stretch only reads. -/
theorem stretch0 (c : Dev nD) :
    W1 m ρ c (Proc.devRef .tc main_v21) = mean (m ((c : Thread nD τ).loc main_arg0)) (srcRow (m ((c : Thread nD τ).loc main_arg1))) (dstRow (m ((c : Thread nD τ).loc main_arg1)))
    ∧ W1 m ρ c (Proc.devRef .tc main_v22) = shapeCast S1x64 (m ((c : Thread nD τ).loc main_arg4)) shapeCasts_S64_S1x64
    ∧ W1 m ρ c (Proc.devRef .tc main_v1) = srcRow (m ((c : Thread nD τ).loc main_arg1))
    ∧ W1 m ρ c (Proc.devRef .tc main_v3) = dstRow (m ((c : Thread nD τ).loc main_arg1))
    ∧ W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9)
    ∧ W1 m ρ c (Proc.devRef .tc main_arg10) = m ((c : Thread nD τ).loc main_arg10) := by
  refine ⟨?_, ?_, ?_, ?_, ?_, ?_, ?_, ?_, ?_, ?_, ?_, ?_, ?_⟩ <;>
    (show StableHlo.after hostOps0 (W0 m ρ c) _ = _; after_results_simp <;> rfl)

/-! ## Across the first layer: it stages none of these buffers -/

theorem pass0 (c : Dev nD) :
    W2 m ρ c (Proc.devRef .tc main_v1) = W1 m ρ c (Proc.devRef .tc main_v1)
    ∧ W2 m ρ c (Proc.devRef .tc main_v3) = W1 m ρ c (Proc.devRef .tc main_v3)
    ∧ W2 m ρ c (Proc.devRef .tc main_arg5) = W1 m ρ c (Proc.devRef .tc main_arg5)
    ∧ W2 m ρ c (Proc.devRef .tc main_arg6) = W1 m ρ c (Proc.devRef .tc main_arg6)
    ∧ W2 m ρ c (Proc.devRef .tc main_arg7) = W1 m ρ c (Proc.devRef .tc main_arg7)
    ∧ W2 m ρ c (Proc.devRef .tc main_arg8) = W1 m ρ c (Proc.devRef .tc main_arg8)
    ∧ W2 m ρ c (Proc.devRef .tc main_arg9) = W1 m ρ c (Proc.devRef .tc main_arg9)
    ∧ W2 m ρ c (Proc.devRef .tc main_arg10) = W1 m ρ c (Proc.devRef .tc main_arg10) :=
  ⟨W2_of_ne m ρ c main_v1 (by decide), W2_of_ne m ρ c main_v3 (by decide), W2_of_ne m ρ c main_arg5 (by decide),
   W2_of_ne m ρ c main_arg6 (by decide), W2_of_ne m ρ c main_arg7 (by decide), W2_of_ne m ρ c main_arg8 (by decide),
   W2_of_ne m ρ c main_arg9 (by decide), W2_of_ne m ρ c main_arg10 (by decide)⟩

/-! ## Stretch 1: from the first layer to the second -/

set_option maxHeartbeats 4000000 in
/-- After the second stretch: the neighbour means of the first layer's output, the second bias as a row, and every
    buffer the stretch only reads. -/
theorem stretch1 (c : Dev nD) :
    W3 m ρ c (Proc.devRef .tc main_v41) = mean (W2 m ρ c (Proc.devRef .tc main_v23)) (W2 m ρ c (Proc.devRef .tc main_v1)) (W2 m ρ c (Proc.devRef .tc main_v3))
    ∧ W3 m ρ c (Proc.devRef .tc main_v42) = shapeCast S1x64 (W2 m ρ c (Proc.devRef .tc main_arg7)) shapeCasts_S64_S1x64
    ∧ W3 m ρ c (Proc.devRef .tc main_v23) = W2 m ρ c (Proc.devRef .tc main_v23)
    ∧ W3 m ρ c (Proc.devRef .tc main_v1) = W2 m ρ c (Proc.devRef .tc main_v1)
    ∧ W3 m ρ c (Proc.devRef .tc main_v3) = W2 m ρ c (Proc.devRef .tc main_v3)
    ∧ W3 m ρ c (Proc.devRef .tc main_arg5) = W2 m ρ c (Proc.devRef .tc main_arg5)
    ∧ W3 m ρ c (Proc.devRef .tc main_arg6) = W2 m ρ c (Proc.devRef .tc main_arg6)
    ∧ W3 m ρ c (Proc.devRef .tc main_arg8) = W2 m ρ c (Proc.devRef .tc main_arg8)
    ∧ W3 m ρ c (Proc.devRef .tc main_arg9) = W2 m ρ c (Proc.devRef .tc main_arg9)
    ∧ W3 m ρ c (Proc.devRef .tc main_arg10) = W2 m ρ c (Proc.devRef .tc main_arg10) := by
  refine ⟨?_, ?_, ?_, ?_, ?_, ?_, ?_, ?_, ?_, ?_⟩ <;>
    (show StableHlo.after hostOps1 (W2 m ρ c) _ = _; after_results_simp <;> rfl)

/-! ## Across the second layer -/

theorem pass1 (c : Dev nD) :
    W4 m ρ c (Proc.devRef .tc main_v1) = W3 m ρ c (Proc.devRef .tc main_v1)
    ∧ W4 m ρ c (Proc.devRef .tc main_v3) = W3 m ρ c (Proc.devRef .tc main_v3)
    ∧ W4 m ρ c (Proc.devRef .tc main_arg8) = W3 m ρ c (Proc.devRef .tc main_arg8)
    ∧ W4 m ρ c (Proc.devRef .tc main_arg9) = W3 m ρ c (Proc.devRef .tc main_arg9)
    ∧ W4 m ρ c (Proc.devRef .tc main_arg10) = W3 m ρ c (Proc.devRef .tc main_arg10) :=
  ⟨W4_of_ne m ρ c main_v1 (by decide), W4_of_ne m ρ c main_v3 (by decide), W4_of_ne m ρ c main_arg8 (by decide),
   W4_of_ne m ρ c main_arg9 (by decide), W4_of_ne m ρ c main_arg10 (by decide)⟩

/-! ## Stretch 2: from the second layer to the last -/

set_option maxHeartbeats 4000000 in
/-- After the third stretch: the neighbour means of the second layer's output, the last bias as a row, and every
    buffer the stretch only reads. -/
theorem stretch2 (c : Dev nD) :
    W5 m ρ c (Proc.devRef .tc main_v61) = mean (W4 m ρ c (Proc.devRef .tc main_v43)) (W4 m ρ c (Proc.devRef .tc main_v1)) (W4 m ρ c (Proc.devRef .tc main_v3))
    ∧ W5 m ρ c (Proc.devRef .tc main_v62) = shapeCast S1x64 (W4 m ρ c (Proc.devRef .tc main_arg10)) shapeCasts_S64_S1x64
    ∧ W5 m ρ c (Proc.devRef .tc main_v43) = W4 m ρ c (Proc.devRef .tc main_v43)
    ∧ W5 m ρ c (Proc.devRef .tc main_arg8) = W4 m ρ c (Proc.devRef .tc main_arg8)
    ∧ W5 m ρ c (Proc.devRef .tc main_arg9) = W4 m ρ c (Proc.devRef .tc main_arg9) := by
  refine ⟨?_, ?_, ?_, ?_, ?_⟩ <;>
    (show StableHlo.after hostOps2 (W4 m ρ c) _ = _; after_results_simp <;> rfl)

end Cert.KernelIdeal.HostFn

end
-- ==== Proof.Spec.lean ====
/-
  The mathematics of one graph-convolution layer, over the extended reals, index by index.

  A layer takes node features `h` (one row of 64 numbers per node), the neighbour means `a` (same layout), two
  64 x 64 weight matrices and a bias row, and produces for node `r` and feature `q`

      (sum_k a[r,k] * Wl[k,q]  +  sum_k h[r,k] * Wr[k,q])  +  b[q],

  followed, for the hidden layers, by the maximum with zero. The same formula is stated for a tile of 5000 rows
  (what one grid point of the tiled computation sees) and for all 50000 rows; a tile of the whole-array function is
  the tile function of the tiles, because a row of the product depends on that row of the left factor only.
  The one algebraic fact used between the two programs is that a sum of three extended reals may be regrouped:
  (p + s) + c = (p + c) + s, which needs no finiteness.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Row `r` of `a` against column `q` of `W`: the 64-term contraction. -/
def rowDot {n : Nat} (a : (⟨2, ![n, 64]⟩ : Shape).Idx → EReal) (W : (⟨2, ![64, 64]⟩ : Shape).Idx → EReal)
    (r : Fin n) (q : Fin 64) : EReal :=
  ∑ k : Fin 64, a (ix2 r k) * W (ix2 k q)

/-- The layer before its activation, at node `r` and feature `q`. -/
def lin {n : Nat} (a h : (⟨2, ![n, 64]⟩ : Shape).Idx → EReal) (Wl Wr : (⟨2, ![64, 64]⟩ : Shape).Idx → EReal)
    (b : (⟨2, ![1, 64]⟩ : Shape).Idx → EReal) (r : Fin n) (q : Fin 64) : EReal :=
  (rowDot a Wl r q + rowDot h Wr r q) + b (ix2 0 q)

/-- A hidden layer: the maximum with zero after `lin`. -/
def hidden {n : Nat} (a h : (⟨2, ![n, 64]⟩ : Shape).Idx → EReal) (Wl Wr : (⟨2, ![64, 64]⟩ : Shape).Idx → EReal)
    (b : (⟨2, ![1, 64]⟩ : Shape).Idx → EReal) : (⟨2, ![n, 64]⟩ : Shape).Idx → EReal :=
  fun i => max (lin a h Wl Wr b (i 0) (i 1)) 0

/-- The last layer: `lin` alone. -/
def last {n : Nat} (a h : (⟨2, ![n, 64]⟩ : Shape).Idx → EReal) (Wl Wr : (⟨2, ![64, 64]⟩ : Shape).Idx → EReal)
    (b : (⟨2, ![1, 64]⟩ : Shape).Idx → EReal) : (⟨2, ![n, 64]⟩ : Shape).Idx → EReal :=
  fun i => lin a h Wl Wr b (i 0) (i 1)

/-- A bias vector laid out as one row. -/
def rowOf (b : (⟨1, ![64]⟩ : Shape).Idx → EReal) : (⟨2, ![1, 64]⟩ : Shape).Idx → EReal :=
  fun i => b (ix1 (i 1))

/-- Row independence: if row `j 0` of the tile operands is row `i 0` of the whole operands, and the weight and bias
    entries met at column `j 1` are those met at column `i 1`, the tile's pre-activation at `j` is the whole array's
    at `i`. -/
theorem lin_tile {A H : (⟨2, ![50000, 64]⟩ : Shape).Idx → EReal} {a h : (⟨2, ![5000, 64]⟩ : Shape).Idx → EReal}
    {Wl Wr wl wr : (⟨2, ![64, 64]⟩ : Shape).Idx → EReal} {b bb : (⟨2, ![1, 64]⟩ : Shape).Idx → EReal}
    (p : Fin 5000) (q : Fin 64) (r : Fin 50000) (q' : Fin 64)
    (ha : ∀ k : Fin 64, a (ix2 p k) = A (ix2 r k)) (hh : ∀ k : Fin 64, h (ix2 p k) = H (ix2 r k))
    (hwl : ∀ k : Fin 64, wl (ix2 k q) = Wl (ix2 k q')) (hwr : ∀ k : Fin 64, wr (ix2 k q) = Wr (ix2 k q'))
    (hb : bb (ix2 0 q) = b (ix2 0 q')) :
    lin a h wl wr bb p q = lin A H Wl Wr b r q' := by
  unfold lin rowDot
  simp only [ha, hh, hwl, hwr, hb]

/-- The same for a hidden layer's tile. -/
theorem hidden_tile {A H : (⟨2, ![50000, 64]⟩ : Shape).Idx → EReal} {a h : (⟨2, ![5000, 64]⟩ : Shape).Idx → EReal}
    {Wl Wr wl wr : (⟨2, ![64, 64]⟩ : Shape).Idx → EReal} {b bb : (⟨2, ![1, 64]⟩ : Shape).Idx → EReal}
    (j : (⟨2, ![5000, 64]⟩ : Shape).Idx) (i : (⟨2, ![50000, 64]⟩ : Shape).Idx)
    (ha : ∀ k : Fin 64, a (ix2 (j 0) k) = A (ix2 (i 0) k)) (hh : ∀ k : Fin 64, h (ix2 (j 0) k) = H (ix2 (i 0) k))
    (hwl : ∀ k : Fin 64, wl (ix2 k (j 1)) = Wl (ix2 k (i 1))) (hwr : ∀ k : Fin 64, wr (ix2 k (j 1)) = Wr (ix2 k (i 1)))
    (hb : bb (ix2 0 (j 1)) = b (ix2 0 (i 1))) :
    hidden a h wl wr bb j = hidden A H Wl Wr b i :=
  congrArg (fun x => max x 0) (lin_tile (j 0) (j 1) (i 0) (i 1) ha hh hwl hwr hb)

/-- The same for the last layer's tile. -/
theorem last_tile {A H : (⟨2, ![50000, 64]⟩ : Shape).Idx → EReal} {a h : (⟨2, ![5000, 64]⟩ : Shape).Idx → EReal}
    {Wl Wr wl wr : (⟨2, ![64, 64]⟩ : Shape).Idx → EReal} {b bb : (⟨2, ![1, 64]⟩ : Shape).Idx → EReal}
    (j : (⟨2, ![5000, 64]⟩ : Shape).Idx) (i : (⟨2, ![50000, 64]⟩ : Shape).Idx)
    (ha : ∀ k : Fin 64, a (ix2 (j 0) k) = A (ix2 (i 0) k)) (hh : ∀ k : Fin 64, h (ix2 (j 0) k) = H (ix2 (i 0) k))
    (hwl : ∀ k : Fin 64, wl (ix2 k (j 1)) = Wl (ix2 k (i 1))) (hwr : ∀ k : Fin 64, wr (ix2 k (j 1)) = Wr (ix2 k (i 1)))
    (hb : bb (ix2 0 (j 1)) = b (ix2 0 (i 1))) :
    last a h wl wr bb j = last A H Wl Wr b i :=
  lin_tile (j 0) (j 1) (i 0) (i 1) ha hh hwl hwr hb

/-- Regrouping a sum of three extended reals. -/
theorem add_regroup (p s c : EReal) : (p + s) + c = (p + c) + s := add_right_comm p s c

end Cert.Sage

end
-- ==== Proof.TilePay.lean ====
/-
  What one grid point computes on its tile, index by index.

  The tile body multiplies the 5000 x 64 tile of neighbour means by Wl and the tile of node features by Wr (each
  product into a zero accumulator), adds the two products, adds the bias row to every row, and (hidden layers) takes
  the maximum with zero. Read over the extended reals, where narrowing a float's format is the identity and a product
  into a zero accumulator is the plain 64-term sum, that is the tile form of the layer formula `Cert.Sage.hidden`
  (or `Cert.Sage.last` for the final layer).
-/
import proofs.«117864_j53257594470606_1_alg».proof.Proof.Gen.KernelIdeal.Skeleton
import proofs.«117864_j53257594470606_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen

/-! ## The product's operand indices: the left factor is read at (row, k), the right at (k, column) -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A tile product into the zero accumulator, at row `p` and column `q`, is the 64-term sum. -/
theorem matmul_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  show FloatOps.matmul dot_S5000x64_S64x64_S5000x64_1_0_0_1_n_n none l r (constant S5000x64 .f32 0x00000000#32) (ix2 p q) = _
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-! ## The three tile bodies -/

/-- The first hidden layer's tile body. -/
theorem pay0_eq (x0 x1 : Vec Ideal S5000x64 .f32) (x2 x3 : Vec Ideal S64x64 .f32) (x4 : Vec Ideal S1x64 .f32) :
    k0_pay1 (F := Ideal) x0 x1 x2 x3 x4 = Cert.Sage.hidden (n := 5000) x0 x1 x2 x3 x4 := by
  funext j
  obtain ⟨p, q, rfl⟩ : ∃ (p : Fin 5000) (q : Fin 64), j = ix2 p q := ⟨j 0, j 1, eq_ix2 j⟩
  unfold k0_pay1
  rw [maximumf_apply, addf_apply, addf_apply, matmul_apply, matmul_apply, broadcastTo_1b_ab_apply,
    shapeCast_self, shapeCast_self, broadcast_apply]
  show max _ (Ideal.ofBits .f32 0x00000000#32) = _
  rw [Ideal.ofBits_zero_f32]
  rfl

/-- The second hidden layer's tile body. -/
theorem pay1_eq (x0 x1 : Vec Ideal S5000x64 .f32) (x2 x3 : Vec Ideal S64x64 .f32) (x4 : Vec Ideal S1x64 .f32) :
    k1_pay1 (F := Ideal) x0 x1 x2 x3 x4 = Cert.Sage.hidden (n := 5000) x0 x1 x2 x3 x4 := by
  funext j
  obtain ⟨p, q, rfl⟩ : ∃ (p : Fin 5000) (q : Fin 64), j = ix2 p q := ⟨j 0, j 1, eq_ix2 j⟩
  unfold k1_pay1
  rw [maximumf_apply, addf_apply, addf_apply, matmul_apply, matmul_apply, broadcastTo_1b_ab_apply,
    shapeCast_self, shapeCast_self, shapeCast_self, broadcast_apply]
  show max _ (Ideal.ofBits .f32 0x00000000#32) = _
  rw [Ideal.ofBits_zero_f32]
  rfl

/-- The last layer's tile body: no maximum. -/
theorem pay2_eq (x0 x1 : Vec Ideal S5000x64 .f32) (x2 x3 : Vec Ideal S64x64 .f32) (x4 : Vec Ideal S1x64 .f32) :
    k2_pay1 (F := Ideal) x0 x1 x2 x3 x4 = Cert.Sage.last (n := 5000) x0 x1 x2 x3 x4 := by
  funext j
  obtain ⟨p, q, rfl⟩ : ∃ (p : Fin 5000) (q : Fin 64), j = ix2 p q := ⟨j 0, j 1, eq_ix2 j⟩
  unfold k2_pay1
  rw [addf_apply, addf_apply, matmul_apply, matmul_apply, broadcastTo_1b_ab_apply,
    shapeCast_self, shapeCast_self, shapeCast_self]
  rfl

end Cert.KernelIdeal.Tile

end
-- ==== Proof.Region0.lean ====
/-
  From tiles to arrays: what each tiled layer leaves in its output array.

  A layer runs over ten grid points; point t reads rows 5000 t .. 5000 t + 4999 of the neighbour means and of the node
  features, the whole of both weight matrices and the bias row, and writes the same rows of the output. Because a row
  of the layer formula depends only on that row of the two row-operands, what point t writes is rows
  5000 t .. 5000 t + 4999 of the layer formula applied to the WHOLE arrays; the ten row blocks cover all 50000 rows,
  so the output array ends as the layer formula of the whole arrays. Stated for any contents `V` of the buffers at the
  layer's entry.
-/
import proofs.«117864_j53257594470606_1_alg».proof.Proof.Gen.KernelIdeal.Frame
import proofs.«117864_j53257594470606_1_alg».proof.Proof.TilePay
import Idealize.ShloMosaic.Lib.Pipeline.Value

set_option maxRecDepth 16384

noncomputable section

namespace Cert.KernelIdeal.Region0

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Layer 0 -/

/-- The printed index maps over the grid: the two row-operands move with the output's row block; the weights and the
    bias stay at block (0, 0); the output's row block index is below ten. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem onto0 : ∀ q0 : Fin 10, ∃ t : Fin cfg0.N, win0_5.index t = ![q0.val, 0] :=
  (by decide +kernel : ∀ q0 : Fin 10, ∃ t : Fin grid0.N, win0_5.index t = ![q0.val, 0])

/-- What point `t` writes back is its row block of the layer formula of the whole arrays. -/
theorem flushed0_eq (c : Dev nD) (t : Fin cfg0.N) :
    (dat0 V c).flushed 5 t = ((cfg0.win 5).blk t).view.read (Elt Ideal)
      (Cert.Sage.hidden (n := 50000) (V c main_v21) (V c main_arg0) (V c main_arg2) (V c main_arg3) (V c main_v22)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [Tile.pay0_eq]
  obtain ⟨e0, e1, e2, e3, e4, e5, e6, e7, e8, e9, e10, e11⟩ := idx0 t
  funext j
  show Cert.Sage.hidden (iblk0 V c 0 t) (iblk0 V c 1 t) (iblk0 V c 2 t) (iblk0 V c 3 t) (iblk0 V c 4 t) j
    = Cert.Sage.hidden (n := 50000) (V c main_v21) (V c main_arg0) (V c main_arg2) (V c main_arg3) (V c main_v22)
        (((cfg0.win 5).blk t).view.emb j)
  refine Cert.Sage.hidden_tile j (((cfg0.win 5).blk t).view.emb j) (fun k => ?_) (fun k => ?_) (fun k => ?_) (fun k => ?_) ?_
  · show V c main_v21 (((cfg0.win 0).blk t).view.emb (ix2 (j 0) k)) = _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · show V c main_arg0 (((cfg0.win 1).blk t).view.emb (ix2 (j 0) k)) = _
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · show V c main_arg2 (((cfg0.win 2).blk t).view.emb (ix2 k (j 1))) = _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  · show V c main_arg3 (((cfg0.win 3).blk t).view.emb (ix2 k (j 1))) = _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  · show V c main_v22 (((cfg0.win 4).blk t).view.emb (ix2 0 (j 1))) = _
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega

/-- An index of the output array is in point `t`'s block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- Row `r` lies in the block of the point whose row block index is `r / 5000`: the ten blocks cover the array. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the layer's ten points: the layer formula of the whole arrays as the layer found them. -/
theorem final0 (c : Dev nD) : (dat0 V c).arrAt 5 cfg0.N
    = Cert.Sage.hidden (n := 50000) (V c main_v21) (V c main_arg0) (V c main_arg2) (V c main_arg3) (V c main_v22) :=
  (dat0 V c).arrAt_eq_of_cover 5 _ (fun t _ => flushed0_eq V c t) cover0

end Cert.KernelIdeal.Region0

end
-- ==== Proof.Region1.lean ====
/-
  From tiles to arrays: what each tiled layer leaves in its output array.

  A layer runs over ten grid points; point t reads rows 5000 t .. 5000 t + 4999 of the neighbour means and of the node
  features, the whole of both weight matrices and the bias row, and writes the same rows of the output. Because a row
  of the layer formula depends only on that row of the two row-operands, what point t writes is rows
  5000 t .. 5000 t + 4999 of the layer formula applied to the WHOLE arrays; the ten row blocks cover all 50000 rows,
  so the output array ends as the layer formula of the whole arrays. Stated for any contents `V` of the buffers at the
  layer's entry.
-/
import proofs.«117864_j53257594470606_1_alg».proof.Proof.Gen.KernelIdeal.Frame
import proofs.«117864_j53257594470606_1_alg».proof.Proof.TilePay
import Idealize.ShloMosaic.Lib.Pipeline.Value

set_option maxRecDepth 16384

noncomputable section

namespace Cert.KernelIdeal.Region1

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Layer 1 -/

/-- The printed index maps over the grid: the two row-operands move with the output's row block; the weights and the
    bias stay at block (0, 0); the output's row block index is below ten. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is its row block of the layer formula of the whole arrays. -/
theorem flushed1_eq (c : Dev nD) (t : Fin cfg1.N) :
    (dat1 V c).flushed 5 t = ((cfg1.win 5).blk t).view.read (Elt Ideal)
      (Cert.Sage.hidden (n := 50000) (V c main_v41) (V c main_v23) (V c main_arg5) (V c main_arg6) (V c main_v42)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [Tile.pay1_eq]
  obtain ⟨e0, e1, e2, e3, e4, e5, e6, e7, e8, e9, e10, e11⟩ := idx1 t
  funext j
  show Cert.Sage.hidden (iblk1 V c 0 t) (iblk1 V c 1 t) (iblk1 V c 2 t) (iblk1 V c 3 t) (iblk1 V c 4 t) j
    = Cert.Sage.hidden (n := 50000) (V c main_v41) (V c main_v23) (V c main_arg5) (V c main_arg6) (V c main_v42)
        (((cfg1.win 5).blk t).view.emb j)
  refine Cert.Sage.hidden_tile j (((cfg1.win 5).blk t).view.emb j) (fun k => ?_) (fun k => ?_) (fun k => ?_) (fun k => ?_) ?_
  · show V c main_v41 (((cfg1.win 0).blk t).view.emb (ix2 (j 0) k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v23 (((cfg1.win 1).blk t).view.emb (ix2 (j 0) k)) = _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · show V c main_arg5 (((cfg1.win 2).blk t).view.emb (ix2 k (j 1))) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_arg6 (((cfg1.win 3).blk t).view.emb (ix2 k (j 1))) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · show V c main_v42 (((cfg1.win 4).blk t).view.emb (ix2 0 (j 1))) = _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v43).slice (win1_5.rect t)).set ↔ _
  rw [View.set_slice_whole, Rect.mem_set_unit]
  exact Iff.rfl

/-- Row `r` lies in the block of the point whose row block index is `r / 5000`: the ten blocks cover the array. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the layer's ten points: the layer formula of the whole arrays as the layer found them. -/
theorem final1 (c : Dev nD) : (dat1 V c).arrAt 5 cfg1.N
    = Cert.Sage.hidden (n := 50000) (V c main_v41) (V c main_v23) (V c main_arg5) (V c main_arg6) (V c main_v42) :=
  (dat1 V c).arrAt_eq_of_cover 5 _ (fun t _ => flushed1_eq V c t) cover1

end Cert.KernelIdeal.Region1

end
-- ==== Proof.Region2.lean ====
/-
  From tiles to arrays: what each tiled layer leaves in its output array.

  A layer runs over ten grid points; point t reads rows 5000 t .. 5000 t + 4999 of the neighbour means and of the node
  features, the whole of both weight matrices and the bias row, and writes the same rows of the output. Because a row
  of the layer formula depends only on that row of the two row-operands, what point t writes is rows
  5000 t .. 5000 t + 4999 of the layer formula applied to the WHOLE arrays; the ten row blocks cover all 50000 rows,
  so the output array ends as the layer formula of the whole arrays. Stated for any contents `V` of the buffers at the
  layer's entry.
-/
import proofs.«117864_j53257594470606_1_alg».proof.Proof.Gen.KernelIdeal.Frame
import proofs.«117864_j53257594470606_1_alg».proof.Proof.TilePay
import Idealize.ShloMosaic.Lib.Pipeline.Value

set_option maxRecDepth 16384

noncomputable section

namespace Cert.KernelIdeal.Region2

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Layer 2 -/

/-- The printed index maps over the grid: the two row-operands move with the output's row block; the weights and the
    bias stay at block (0, 0); the output's row block index is below ten. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every one of the ten row blocks is some point's. -/
theorem onto2 : ∀ q0 : Fin 10, ∃ t : Fin cfg2.N, win2_5.index t = ![q0.val, 0] :=
  (by decide +kernel : ∀ q0 : Fin 10, ∃ t : Fin grid2.N, win2_5.index t = ![q0.val, 0])

/-- What point `t` writes back is its row block of the layer formula of the whole arrays. -/
theorem flushed2_eq (c : Dev nD) (t : Fin cfg2.N) :
    (dat2 V c).flushed 5 t = ((cfg2.win 5).blk t).view.read (Elt Ideal)
      (Cert.Sage.last (n := 50000) (V c main_v61) (V c main_v43) (V c main_arg8) (V c main_arg9) (V c main_v62)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  rw [Tile.pay2_eq]
  obtain ⟨e0, e1, e2, e3, e4, e5, e6, e7, e8, e9, e10, e11⟩ := idx2 t
  funext j
  show Cert.Sage.last (iblk2 V c 0 t) (iblk2 V c 1 t) (iblk2 V c 2 t) (iblk2 V c 3 t) (iblk2 V c 4 t) j
    = Cert.Sage.last (n := 50000) (V c main_v61) (V c main_v43) (V c main_arg8) (V c main_arg9) (V c main_v62)
        (((cfg2.win 5).blk t).view.emb j)
  refine Cert.Sage.last_tile j (((cfg2.win 5).blk t).view.emb j) (fun k => ?_) (fun k => ?_) (fun k => ?_) (fun k => ?_) ?_
  · show V c main_v61 (((cfg2.win 0).blk t).view.emb (ix2 (j 0) k)) = _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  · show V c main_v43 (((cfg2.win 1).blk t).view.emb (ix2 (j 0) k)) = _
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * k.val = k.val; omega
  · show V c main_arg8 (((cfg2.win 2).blk t).view.emb (ix2 k (j 1))) = _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · show V c main_arg9 (((cfg2.win 3).blk t).view.emb (ix2 k (j 1))) = _
    refine congrArg _ (funext fun a => Fin.ext ?_)
    match a with
    | ⟨0, _⟩ => show win2_3.index t (0 : Fin 2) * 64 + 1 * k.val = k.val; omega
    | ⟨1, _⟩ => show win2_3.index t (1 : Fin 2) * 64 + 1 * (j 1).val = win2_5.index t (1 : Fin 2) * 64 + 1 * (j 1).val; omega
  · show V c main_v62 (((cfg2.win 4).blk t).view.emb (ix2 0 (j 1))) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- An index of the output array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v63).slice (win2_5.rect t)).set ↔ _
  rw [View.set_slice_whole, Rect.mem_set_unit]
  exact Iff.rfl

/-- Row `r` lies in the block of the point whose row block index is `r / 5000`: the ten blocks cover the array. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the layer's ten points: the layer formula of the whole arrays as the layer found them. -/
theorem final2 (c : Dev nD) : (dat2 V c).arrAt 5 cfg2.N
    = Cert.Sage.last (n := 50000) (V c main_v61) (V c main_v43) (V c main_arg8) (V c main_arg9) (V c main_v62) :=
  (dat2 V c).arrAt_eq_of_cover 5 _ (fun t _ => flushed2_eq V c t) cover2

end Cert.KernelIdeal.Region2

end
-- ==== Proof.RefSide.lean ====
/-
  The reference program's result, as three layers of one formula.

  The reference computes, three times over, the neighbour means of the current features (gather, scatter-add, count,
  clamp, divide), then (means x Wl + bias) + features x Wr, with a maximum with zero after the first two layers. This
  module names those functions, shows the run's composed term is their threefold composition, and reads one layer at
  an index over the extended reals: each product is the 64-term sum, the bias reaches every row, and regrouping
  (p + c) + s = (p + s) + c gives the layer formula `Cert.Sage.hidden` / `Cert.Sage.last`.
-/
import proofs.«117864_j53257594470606_1_alg».proof.Proof.Gen.ReferenceIdeal.Run
import proofs.«117864_j53257594470606_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.HostFn

open Idealize.ShloMosaic Idealize.ShloMosaic.ValueIdx Idealize.ShloMosaic.TcCoe Idealize.SL.Sem
open Cert.ReferenceIdeal Cert.ReferenceIdeal.Gen

variable {F : FTy → Type} [FloatOps F]

/-- The edge list's first row: the source node of every edge. -/
def srcRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edge list's second row: the destination node of every edge. -/
def dstRow (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The neighbour mean: gather the source rows of `h` (a negative source index counted from the end), add them up
    per destination node, and divide by the number of incoming edges, at least one. -/
def mean (h : (⟨S50000x64, .f32⟩ : BufTy).Contents (Elt F)) (s d : (⟨S800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d)
      (Host.gather gather_S50000x64_S800000x1_S800000x64_1_0_n_n_0_1_164 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x64 ![0, 1] bcast_S50000x1_S50000x64_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 d)
          (broadcastInDim S800000x1 ![] bcast_S_S800000x1 (constant S_ .f32 0x3F800000#32)))
        (broadcastInDim S50000x1 ![] bcast_S_S50000x1 (constant S_ .f32 0x3F800000#32))))

/-- One layer before its activation: (means x Wl + bias) + features x Wr. -/
def lin (a h : (⟨S50000x64, .f32⟩ : BufTy).Contents (Elt F)) (Wl Wr : (⟨S64x64, .f32⟩ : BufTy).Contents (Elt F))
    (b : (⟨S64, .f32⟩ : BufTy).Contents (Elt F)) : (⟨S50000x64, .f32⟩ : BufTy).Contents (Elt F) :=
  addf (addf (Host.dotGeneral dot_S50000x64_S64x64_S50000x64_1_0_0_1_n_n none a Wl)
      (broadcastInDim S50000x64 ![0, 1] bcast_S1x64_S50000x64_0_1 (broadcastInDim S1x64 ![1] bcast_S64_S1x64_1 b)))
    (Host.dotGeneral dot_S50000x64_S64x64_S50000x64_1_0_0_1_n_n none h Wr)

/-- The maximum with zero. -/
def relu (x : (⟨S50000x64, .f32⟩ : BufTy).Contents (Elt F)) : (⟨S50000x64, .f32⟩ : BufTy).Contents (Elt F) :=
  maximumf x (broadcastInDim S50000x64 ![] bcast_S_S50000x64 (constant S_ .f32 0x00000000#32))

/-- A hidden layer on features `h` and edge list `ei`. -/
def hid (h : (⟨S50000x64, .f32⟩ : BufTy).Contents (Elt F)) (ei : (⟨S2x800000, .i32⟩ : BufTy).Contents (Elt F))
    (Wl Wr : (⟨S64x64, .f32⟩ : BufTy).Contents (Elt F)) (b : (⟨S64, .f32⟩ : BufTy).Contents (Elt F)) :
    (⟨S50000x64, .f32⟩ : BufTy).Contents (Elt F) :=
  relu (lin (mean h (srcRow ei) (dstRow ei)) h Wl Wr b)

/-- The last layer on features `h` and edge list `ei`. -/
def out (h : (⟨S50000x64, .f32⟩ : BufTy).Contents (Elt F)) (ei : (⟨S2x800000, .i32⟩ : BufTy).Contents (Elt F))
    (Wl Wr : (⟨S64x64, .f32⟩ : BufTy).Contents (Elt F)) (b : (⟨S64, .f32⟩ : BufTy).Contents (Elt F)) :
    (⟨S50000x64, .f32⟩ : BufTy).Contents (Elt F) :=
  lin (mean h (srcRow ei) (dstRow ei)) h Wl Wr b

set_option maxHeartbeats 4000000 in
/-- The run's composed term is the three layers, one after the other. -/
theorem res_eq (m : (ℓ : Loc nD τ sig) → Buf (Elt F) ℓ) (c : Dev nD) :
    Cert.ReferenceIdeal.Value.res_main_v77 m c
      = out (hid (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (m ((c.tc : Thread nD τ).loc main_arg1)) (m ((c.tc : Thread nD τ).loc main_arg5)) (m ((c.tc : Thread nD τ).loc main_arg6)) (m ((c.tc : Thread nD τ).loc main_arg7)))
          (m ((c.tc : Thread nD τ).loc main_arg1)) (m ((c.tc : Thread nD τ).loc main_arg8)) (m ((c.tc : Thread nD τ).loc main_arg9)) (m ((c.tc : Thread nD τ).loc main_arg10)) := by
  unfold Cert.ReferenceIdeal.Value.res_main_v77
  rfl

/-! ## One layer at an index -/

theorem lhs_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

theorem lhs_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The whole-array product at row `r` and column `q` is the 64-term sum. -/
theorem dot_apply (l : FVec Ideal S50000x64 .f32) (w : FVec Ideal S64x64 .f32) (r : Fin 50000) (q : Fin 64) :
    Host.dotGeneral dot_S50000x64_S64x64_S50000x64_1_0_0_1_n_n none l w (ix2 r q) = ∑ k : Fin 64, l (ix2 r k) * w (ix2 k q) := by
  show FloatOps.dotGeneral dot_S50000x64_S64x64_S50000x64_1_0_0_1_n_n none .single l w (ix2 r q) = _
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r q) ((contrEquiv1 dot_S50000x64_S64x64_S50000x64_1_0_0_1_n_n 64 rfl rfl).symm k) = ix2 r k :=
    funext fun a => Fin.ext (by
      match a with
      | ⟨0, _⟩ => exact lhs_0 _ _
      | ⟨1, _⟩ => exact (lhs_1 _ _).trans hk)
  have er : dot_S50000x64_S64x64_S50000x64_1_0_0_1_n_n.rhsIdx (ix2 r q) ((contrEquiv1 dot_S50000x64_S64x64_S50000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-- The bias reaches every row: broadcast to one row, then to all rows, read at (r, q), is entry q. -/
theorem bias_apply (b : FVec Ideal S64 .f32) (r : Fin 50000) (q : Fin 64) :
    broadcastInDim S50000x64 ![0, 1] bcast_S1x64_S50000x64_0_1 (broadcastInDim S1x64 ![1] bcast_S64_S1x64_1 b) (ix2 r q)
      = b (ix1 q) := by
  rw [broadcastInDim_apply ![0, 1] bcast_S1x64_S50000x64_0_1 _ (ix2 r q) (ix2 (0 : Fin 1) q) (fun a => by
        match a with
        | ⟨0, _⟩ => rfl
        | ⟨1, _⟩ => rfl),
    broadcastInDim_apply ![1] bcast_S64_S1x64_1 b (ix2 (0 : Fin 1) q) (ix1 q) (fun a => by
        match a with
        | ⟨0, _⟩ => rfl)]

/-- One layer before its activation is the layer formula, the bias laid out as a row. -/
theorem lin_eq (a h : FVec Ideal S50000x64 .f32) (Wl Wr : FVec Ideal S64x64 .f32) (b : FVec Ideal S64 .f32) :
    lin (F := Ideal) a h Wl Wr b = Cert.Sage.last (n := 50000) a h Wl Wr (Cert.Sage.rowOf b) := by
  funext j
  obtain ⟨r, q, rfl⟩ : ∃ (r : Fin 50000) (q : Fin 64), j = ix2 r q := ⟨j 0, j 1, eq_ix2 j⟩
  unfold lin
  rw [addf_apply, addf_apply, dot_apply, dot_apply, bias_apply]
  exact (Cert.Sage.add_regroup _ _ _).symm

/-- A hidden layer's maximum with zero after it is the hidden-layer formula. -/
theorem relu_lin_eq (a h : FVec Ideal S50000x64 .f32) (Wl Wr : FVec Ideal S64x64 .f32) (b : FVec Ideal S64 .f32) :
    relu (F := Ideal) (lin a h Wl Wr b) = Cert.Sage.hidden (n := 50000) a h Wl Wr (Cert.Sage.rowOf b) := by
  funext j
  unfold relu
  rw [maximumf_apply, lin_eq]
  show max _ (Ideal.ofBits .f32 0x00000000#32) = _
  rw [Ideal.ofBits_zero_f32]
  rfl

end Cert.ReferenceIdeal.HostFn

end
-- ==== Proof.Bridge.lean ====
/-
  The two programs compute one function.

  The tiled program's result array is followed back through its six segments: each tiled layer leaves the layer
  formula of the arrays it found (tiles to arrays), each host stretch before it prepared the neighbour means and the
  bias row from the previous layer's output (or from the input features), and the edge list's two rows and the weights
  reach every layer unchanged. The reference's result is the same three layers composed directly. Layer by layer the
  two agree: the neighbour means are the same function on both sides, and the reference's
  (means x Wl + bias) + features x Wr is the tiled (means x Wl + features x Wr) + bias by regrouping a sum of three
  extended reals.
-/
import proofs.«117864_j53257594470606_1_alg».proof.Proof.HostSide
import proofs.«117864_j53257594470606_1_alg».proof.Proof.Region0
import proofs.«117864_j53257594470606_1_alg».proof.Proof.Region1
import proofs.«117864_j53257594470606_1_alg».proof.Proof.Region2
import proofs.«117864_j53257594470606_1_alg».proof.Proof.RefSide

set_option maxRecDepth 16384

noncomputable section

namespace Cert.Proof.Bridge

open Idealize.ShloMosaic Idealize.ShloMosaic.ValueIdx Idealize.ShloMosaic.TcCoe Idealize.SL.Sem
open Cert.KernelIdeal Cert.KernelIdeal.Gen

/-! ## Congruence of the layer formulas -/

theorem hidden_congr {a a' h h' : (⟨2, ![50000, 64]⟩ : Shape).Idx → EReal} {Wl Wl' Wr Wr' : (⟨2, ![64, 64]⟩ : Shape).Idx → EReal}
    {b b' : (⟨2, ![1, 64]⟩ : Shape).Idx → EReal} (e1 : a = a') (e2 : h = h') (e3 : Wl = Wl') (e4 : Wr = Wr') (e5 : b = b') :
    Cert.Sage.hidden a h Wl Wr b = Cert.Sage.hidden a' h' Wl' Wr' b' := by
  subst e1 e2 e3 e4 e5; rfl

theorem last_congr {a a' h h' : (⟨2, ![50000, 64]⟩ : Shape).Idx → EReal} {Wl Wl' Wr Wr' : (⟨2, ![64, 64]⟩ : Shape).Idx → EReal}
    {b b' : (⟨2, ![1, 64]⟩ : Shape).Idx → EReal} (e1 : a = a') (e2 : h = h') (e3 : Wl = Wl') (e4 : Wr = Wr') (e5 : b = b') :
    Cert.Sage.last a h Wl Wr b = Cert.Sage.last a' h' Wl' Wr' b' := by
  subst e1 e2 e3 e4 e5; rfl

/-! ## One layer: the reference's form is the tiled program's -/

/-- A bias vector reshaped to one row is that row. -/
theorem row_eq (b : FVec Ideal S64 .f32) : shapeCast S1x64 b shapeCasts_S64_S1x64 = Cert.Sage.rowOf b := by
  funext j
  obtain ⟨u, q, rfl⟩ : ∃ (u : Fin 1) (q : Fin 64), j = ix2 u q := ⟨j 0, j 1, eq_ix2 j⟩
  exact shapeCast_a_1a_apply b shapeCasts_S64_S1x64 u q

/-- The neighbour means are one function in the two programs' spellings. -/
theorem mean_eq (h : FVec Ideal S50000x64 .f32) (ei : IVec S2x800000 32) :
    Cert.ReferenceIdeal.HostFn.mean (F := Ideal) h (Cert.ReferenceIdeal.HostFn.srcRow ei) (Cert.ReferenceIdeal.HostFn.dstRow ei)
      = Cert.KernelIdeal.HostFn.mean (F := Ideal) h (Cert.KernelIdeal.HostFn.srcRow ei) (Cert.KernelIdeal.HostFn.dstRow ei) := rfl

/-- A hidden layer of the reference is the hidden-layer formula on the tiled program's neighbour means and bias row. -/
theorem hid_eq (h : FVec Ideal S50000x64 .f32) (ei : IVec S2x800000 32) (Wl Wr : FVec Ideal S64x64 .f32) (b : FVec Ideal S64 .f32) :
    Cert.ReferenceIdeal.HostFn.hid (F := Ideal) h ei Wl Wr b
      = Cert.Sage.hidden (n := 50000) (Cert.KernelIdeal.HostFn.mean (F := Ideal) h (Cert.KernelIdeal.HostFn.srcRow ei) (Cert.KernelIdeal.HostFn.dstRow ei))
          h Wl Wr (shapeCast S1x64 b shapeCasts_S64_S1x64) := by
  unfold Cert.ReferenceIdeal.HostFn.hid
  rw [Cert.ReferenceIdeal.HostFn.relu_lin_eq]
  exact hidden_congr (mean_eq h ei) rfl rfl rfl (row_eq b).symm

/-- The last layer of the reference likewise. -/
theorem out_eq (h : FVec Ideal S50000x64 .f32) (ei : IVec S2x800000 32) (Wl Wr : FVec Ideal S64x64 .f32) (b : FVec Ideal S64 .f32) :
    Cert.ReferenceIdeal.HostFn.out (F := Ideal) h ei Wl Wr b
      = Cert.Sage.last (n := 50000) (Cert.KernelIdeal.HostFn.mean (F := Ideal) h (Cert.KernelIdeal.HostFn.srcRow ei) (Cert.KernelIdeal.HostFn.dstRow ei))
          h Wl Wr (shapeCast S1x64 b shapeCasts_S64_S1x64) := by
  unfold Cert.ReferenceIdeal.HostFn.out
  rw [Cert.ReferenceIdeal.HostFn.lin_eq]
  exact last_congr (mean_eq h ei) rfl rfl rfl (row_eq b).symm

/-! ## The tiled program's arrays, layer by layer -/

variable (m : (ℓ : Loc nD τ sig) → Buf (Elt Ideal) ℓ) (ρ : Dev nD → PrngReg)

/-- After the first tiled layer its output array is the reference's first hidden layer of the arguments. -/
theorem kernel_v23 (c : Dev nD) : W2 m ρ c (Proc.devRef .tc main_v23)
    = Cert.ReferenceIdeal.HostFn.hid (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨s21, s22, -, -, a0, a2, a3, -⟩ := Cert.KernelIdeal.HostFn.stretch0 m ρ c
  refine (W2_arr m ρ c 5).trans ((Cert.KernelIdeal.Region0.final0 (V1 m ρ) c).trans ?_)
  rw [hid_eq]
  exact hidden_congr s21 a0 a2 a3 s22

/-- After the second tiled layer its output array is the reference's second hidden layer. -/
theorem kernel_v43 (c : Dev nD) : W4 m ρ c (Proc.devRef .tc main_v43)
    = Cert.ReferenceIdeal.HostFn.hid (F := Ideal)
        (Cert.ReferenceIdeal.HostFn.hid (F := Ideal) (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg1)) (m ((c : Thread nD τ).loc main_arg5)) (m ((c : Thread nD τ).loc main_arg6)) (m ((c : Thread nD τ).loc main_arg7)) := by
  obtain ⟨-, -, t1, t3, -, -, -, b5, b6, b7, -⟩ := Cert.KernelIdeal.HostFn.stretch0 m ρ c
  obtain ⟨p1, p3, p5, p6, p7, -⟩ := Cert.KernelIdeal.HostFn.pass0 m ρ c
  obtain ⟨s41, s42, s23, -, -, a5, a6, -⟩ := Cert.KernelIdeal.HostFn.stretch1 m ρ c
  refine (W4_arr m ρ c 5).trans ((Cert.KernelIdeal.Region1.final1 (V3 m ρ) c).trans ?_)
  rw [hid_eq]
  refine hidden_congr ?_ ?_ ?_ ?_ ?_
  · exact s41.trans (by rw [kernel_v23 m ρ c, p1, p3, t1, t3])
  · exact s23.trans (kernel_v23 m ρ c)
  · exact a5.trans (p5.trans b5)
  · exact a6.trans (p6.trans b6)
  · exact s42.trans (by rw [p7, b7])

/-- After the last tiled layer the result array is the reference's three layers of the arguments. -/
theorem kernel_v63 (c : Dev nD) : W6 m ρ c (Proc.devRef .tc main_v63)
    = Cert.ReferenceIdeal.HostFn.out (F := Ideal)
        (Cert.ReferenceIdeal.HostFn.hid (F := Ideal)
          (Cert.ReferenceIdeal.HostFn.hid (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg1)) (m ((c : Thread nD τ).loc main_arg5)) (m ((c : Thread nD τ).loc main_arg6)) (m ((c : Thread nD τ).loc main_arg7)))
        (m ((c : Thread nD τ).loc main_arg1)) (m ((c : Thread nD τ).loc main_arg8)) (m ((c : Thread nD τ).loc main_arg9)) (m ((c : Thread nD τ).loc main_arg10)) := by
  obtain ⟨-, -, t1, t3, -, -, -, -, -, -, b8, b9, b10⟩ := Cert.KernelIdeal.HostFn.stretch0 m ρ c
  obtain ⟨p1, p3, -, -, -, p8, p9, p10⟩ := Cert.KernelIdeal.HostFn.pass0 m ρ c
  obtain ⟨-, -, -, u1, u3, -, -, a8, a9, a10⟩ := Cert.KernelIdeal.HostFn.stretch1 m ρ c
  obtain ⟨r1, r3, r8, r9, r10⟩ := Cert.KernelIdeal.HostFn.pass1 m ρ c
  obtain ⟨s61, s62, s43, c8, c9⟩ := Cert.KernelIdeal.HostFn.stretch2 m ρ c
  refine (W6_arr m ρ c 5).trans ((Cert.KernelIdeal.Region2.final2 (V5 m ρ) c).trans ?_)
  rw [out_eq]
  refine last_congr ?_ ?_ ?_ ?_ ?_
  · exact s61.trans (by rw [kernel_v43 m ρ c, r1, r3, u1, u3, p1, p3, t1, t3])
  · exact s43.trans (kernel_v43 m ρ c)
  · exact c8.trans (r8.trans (a8.trans (p8.trans b8)))
  · exact c9.trans (r9.trans (a9.trans (p9.trans b9)))
  · exact s62.trans (by rw [r10, a10, p10, b10])

/-! ## The two results agree -/

/-- From memories that agree on the eleven arguments, the tiled program's result array is the reference's result. -/
theorem result_eq (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v77 m' c = W6 m ρ c (Proc.devRef .tc main_v63) := by
  obtain ⟨h0, h1, h2, h3, h4, h5, h6, h7, h8, h9, h10⟩ := h
  rw [Cert.ReferenceIdeal.HostFn.res_eq, h0, h1, h2, h3, h4, h5, h6, h7, h8, h9, h10]
  exact (kernel_v63 m ρ c).symm

end Cert.Proof.Bridge

end
-- ==== Proof.lean ====
/-
  The certificate of a three-layer graph convolution (mean aggregation over incoming edges, two weight matrices and a
  bias per layer, a maximum with zero after the first two layers), tiled over the node axis, against the plain array
  program.

  Frames. The tiled program, at words and at extended reals, terminates without a fault and leaves its eleven argument
  arrays as launched: its generated frame. The reference does so by its generated run.
  Idealization. The ideal reading rewrote no operation, so there is nothing to preserve.
  Values. Over the extended reals the two programs end with one result array: per layer the tiled program computes
  (means x Wl + features x Wr) + bias on row blocks of 5000 nodes, which is the whole-array formula because a row of
  the result depends on that row of the two row-operands only, and the ten blocks cover the 50000 rows; the reference
  computes (means x Wl + bias) + features x Wr, the same sum regrouped; narrowing a float's format is the identity and a
  product into a zero accumulator is the plain sum; the neighbour means are literally the same host operations in both
  programs. No finiteness of the inputs is used.
-/
import proofs.«117864_j53257594470606_1_alg».proof.Defs
import proofs.«117864_j53257594470606_1_alg».proof.Proof.Gen.Kernel
import proofs.«117864_j53257594470606_1_alg».proof.Proof.Gen.Kernel.Skeleton
import proofs.«117864_j53257594470606_1_alg».proof.Proof.Gen.Kernel.Launch
import proofs.«117864_j53257594470606_1_alg».proof.Proof.Gen.Kernel.Points
import proofs.«117864_j53257594470606_1_alg».proof.Proof.Gen.Kernel.Frame
import proofs.«117864_j53257594470606_1_alg».proof.Proof.Gen.KernelIdeal
import proofs.«117864_j53257594470606_1_alg».proof.Proof.Gen.KernelIdeal.Skeleton
import proofs.«117864_j53257594470606_1_alg».proof.Proof.Gen.KernelIdeal.Launch
import proofs.«117864_j53257594470606_1_alg».proof.Proof.Gen.KernelIdeal.Points
import proofs.«117864_j53257594470606_1_alg».proof.Proof.Gen.KernelIdeal.Frame
import proofs.«117864_j53257594470606_1_alg».proof.Proof.Gen.ReferenceIdeal
import proofs.«117864_j53257594470606_1_alg».proof.Proof.Gen.ReferenceIdeal.Run
import proofs.«117864_j53257594470606_1_alg».proof.Proof.Gen.Pre_finite_inputs
import proofs.«117864_j53257594470606_1_alg».proof.Proof.KernelRun
import proofs.«117864_j53257594470606_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end, with one result: the tiled program's result array at its last segment boundary is the reference's
    composed term of the same arguments. -/
theorem algebraic : Cert.algebraic_KernelIdeal_ReferenceIdeal := by
  intro m ρ m' ρ' _ hagree
  refine ⟨fun c => Cert.KernelIdeal.Gen.W6 m ρ c (Proc.devRef .tc Cert.KernelIdeal.main_v63),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m ρ m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
